-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x8 : Shape := ⟨2, ![4096, 8]⟩
abbrev S4096x1 : Shape := ⟨2, ![4096, 1]⟩
abbrev S2097152 : Shape := ⟨1, ![2097152]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x8 : S_.BroadcastsInDim S4096x8 (![] : Fin 0 → Fin S4096x8.rank)
  reducesTo_S4096x8_S_d0_1 : S4096x8.ReducesTo [0, 1] S_
  bcast_S_S4096x1 : S_.BroadcastsInDim S4096x1 (![] : Fin 0 → Fin S4096x1.rank)
  reducesTo_S4096x1_S_d0_1 : S4096x1.ReducesTo [0, 1] S_

variable [Facts]

def fn {F : FTy → Type} [FloatOps F] (main_arg0 : FVec F S8192x4096 .f32) (main_arg1 : FVec F S4096x8 .f32) (main_arg2 : FVec F S4096x1 .f32) (main_arg3 : IVec S2097152 32) (main_arg4 : IVec S2097152 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x8 .f32 := Host.absf main_arg1
  let main_cst_0 : FVec F S_ .f32 := constant S_ .f32 0x7F800000#32
  let main_v5 : FVec F S4096x8 .f32 := broadcastInDim S4096x8 ![] bcast_S_S4096x8 main_cst_0
  let main_v6 : IVec S4096x8 1 := cmpf .olt main_v4 main_v5
  let main_c_1 : IVec S_ 1 := constantI S_ 1 1#1
  let main_v7 : IVec S_ 1 := (fun x v => Host.reduce IntOp.andi x v reducesTo_S4096x8_S_d0_1 h_S_) main_v6 main_c_1
  let main_v8 : IVec S_ 1 := andi main_v3 main_v7
  let main_v9 : FVec F S4096x1 .f32 := Host.absf main_arg2
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  main_v13
-- ==== Kernel.lean ====
abbrev S8192x4096 : Shape := ⟨2, ![8192, 4096]⟩
abbrev S4096x8 : Shape := ⟨2, ![4096, 8]⟩
abbrev S4096x1 : Shape := ⟨2, ![4096, 1]⟩
abbrev S2097152 : Shape := ⟨1, ![2097152]⟩
abbrev S_ : Shape := ⟨0, ![]⟩
abbrev S2097152x1 : Shape := ⟨2, ![2097152, 1]⟩
abbrev S2097152x8 : Shape := ⟨2, ![2097152, 8]⟩
abbrev S4096x4096 : Shape := ⟨2, ![4096, 4096]⟩
abbrev S8 : Shape := ⟨1, ![8]⟩
abbrev S1x8 : Shape := ⟨2, ![1, 8]⟩
abbrev S1024x512 : Shape := ⟨2, ![1024, 512]⟩
abbrev S2048x512 : Shape := ⟨2, ![2048, 512]⟩
abbrev S1024x2048 : Shape := ⟨2, ![1024, 2048]⟩

abbrev nBuf : Space → Nat
  | .hbm => 43
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x8, .f32⟩
  | .hbm, ⟨2, _⟩ => ⟨S4096x1, .f32⟩
  | .hbm, ⟨3, _⟩ => ⟨S2097152, .i32⟩
  | .hbm, ⟨4, _⟩ => ⟨S2097152, .i32⟩
  | .hbm, ⟨5, _⟩ => ⟨S_, .i32⟩
  | .hbm, ⟨6, _⟩ => ⟨S2097152, .i32⟩
  | .hbm, ⟨7, _⟩ => ⟨S2097152, .i1⟩
  | .hbm, ⟨8, _⟩ => ⟨S_, .i32⟩
  | .hbm, ⟨9, _⟩ => ⟨S2097152, .i32⟩
  | .hbm, ⟨10, _⟩ => ⟨S2097152, .i32⟩
  | .hbm, ⟨11, _⟩ => ⟨S2097152, .i32⟩
  | .hbm, ⟨12, _⟩ => ⟨S2097152x1, .i32⟩
  | .hbm, ⟨13, _⟩ => ⟨S2097152x8, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S2097152x1, .i32⟩
  | .hbm, ⟨18, _⟩ => ⟨S8, .i32⟩
  | .hbm, ⟨19, _⟩ => ⟨S_, .i32⟩
  | .hbm, ⟨20, _⟩ => ⟨S8, .i32⟩
  | .hbm, ⟨21, _⟩ => ⟨S8, .i32⟩
  | .hbm, ⟨22, _⟩ => ⟨S_, .i32⟩
  | .hbm, ⟨23, _⟩ => ⟨S8, .i32⟩
  | .hbm, ⟨24, _⟩ => ⟨S8, .i32⟩
  | .hbm, ⟨25, _⟩ => ⟨S1x8, .i32⟩
  | .hbm, ⟨26, _⟩ => ⟨S2097152x8, .i32⟩
  | .hbm, ⟨27, _⟩ => ⟨S2097152x8, .i32⟩
  | .hbm, ⟨28, _⟩ => ⟨S2097152x8, .i32⟩
  | .hbm, ⟨29, _⟩ => ⟨S_, .i32⟩
  | .hbm, ⟨30, _⟩ => ⟨S2097152x8, .i32⟩
  | .hbm, ⟨31, _⟩ => ⟨S2097152x8, .i32⟩
  | .hbm, ⟨32, _⟩ => ⟨S_, .i32⟩
  | .hbm, ⟨33, _⟩ => ⟨S2097152x8, .i32⟩
  | .hbm, ⟨34, _⟩ => ⟨S2097152x8, .i32⟩
  | .hbm, ⟨35, _⟩ => ⟨S_, .i32⟩
  | .hbm, ⟨36, _⟩ => ⟨S2097152x8, .i32⟩
  | .hbm, ⟨37, _⟩ => ⟨S2097152x8, .i32⟩
  | .hbm, ⟨38, _⟩ => ⟨S2097152x8, .f32⟩
  | .hbm, ⟨39, _⟩ => ⟨S4096x4096, .f32⟩
  | .hbm, ⟨40, _⟩ => ⟨S4096x4096, .f32⟩
  | .hbm, ⟨41, _⟩ => ⟨S4096x4096, .bf16⟩
  | .hbm, ⟨42, _⟩ => ⟨S8192x4096, .f32⟩
  | .local _ .vmem, ⟨0, _⟩ => ⟨S1024x512, .f32⟩
  | .local _ .vmem, ⟨1, _⟩ => ⟨S1024x512, .f32⟩
  | .local _ .vmem, ⟨2, _⟩ => ⟨S2048x512, .bf16⟩
  | .local _ .vmem, ⟨3, _⟩ => ⟨S2048x512, .bf16⟩
  | .local _ .vmem, ⟨4, _⟩ => ⟨S1024x2048, .f32⟩
  | .local _ .vmem, ⟨5, _⟩ => ⟨S1024x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_c_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bcast_S_S2097152 : S_.BroadcastsInDim S2097152 (![] : Fin 0 → Fin S2097152.rank)
  bcast_S2097152_S2097152x1_0 : S2097152.BroadcastsInDim S2097152x1 (![0] : Fin 1 → Fin S2097152x1.rank)
  shapeCasts_S2097152x8_S4096x4096 : S2097152x8.ShapeCasts S4096x4096
  bcast_S4096x1_S4096x4096_0_1 : S4096x1.BroadcastsInDim S4096x4096 (![0, 1] : Fin 2 → Fin S4096x4096.rank)
  bcast_S_S8 : S_.BroadcastsInDim S8 (![] : Fin 0 → Fin S8.rank)
  bcast_S8_S1x8_1 : S8.BroadcastsInDim S1x8 (![1] : Fin 1 → Fin S1x8.rank)
  bcast_S2097152x1_S2097152x8_0_1 : S2097152x1.BroadcastsInDim S2097152x8 (![0, 1] : Fin 2 → Fin S2097152x8.rank)
  bcast_S1x8_S2097152x8_0_1 : S1x8.BroadcastsInDim S2097152x8 (![0, 1] : Fin 2 → Fin S2097152x8.rank)
  bcast_S_S2097152x8 : S_.BroadcastsInDim S2097152x8 (![] : Fin 0 → Fin S2097152x8.rank)
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  inb_S1024x512_S1024x512_0_0 : ∀ a, (![0, 0] : Fin 2 → Nat) a + S1024x512.size a ≤ S1024x512.size a
  h_S1024x512 : 0 < S1024x512.numel
  shapeCasts_S1024x2048_S1024x2048 : S1024x2048.ShapeCasts S1024x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  gather_S4096x8_S2097152x1_S2097152x8_1_0_n_n_0_1_18_wf : GatherDims.WF S4096x8 S2097152x1 S2097152x8 [1] [0] [] [0] [] 1 ![1, 8]
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S4096x4096.size a
  hwx0_1 : ∀ i : grid0.Coords, EltTy.bits .bf16 = 32 ∨ (Rect.block (s := S4096x4096) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S8192x4096.size a
  hwx0_2 : ∀ i : grid0.Coords, EltTy.bits .f32 = 32 ∨ (Rect.block (s := S8192x4096) S1024x2048.size (cc0_transform_2 i) (hinb0_2 i)).WholeWords (EltTy.packing .f32)

variable [Facts₀]

def gather_S4096x8_S2097152x1_S2097152x8_1_0_n_n_0_1_18 : GatherDims S4096x8 S2097152x1 S2097152x8 where
  offsetDims := [1]
  collapsedSliceDims := [0]
  operandBatchingDims := []
  startIndicesBatchingDims := []
  startIndexMap := [0]
  indexVectorDim := 1
  sliceSizes := ![1, 8]
  wf := gather_S4096x8_S2097152x1_S2097152x8_1_0_n_n_0_1_18_wf
def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x8 : Shape := ⟨2, ![4096, 8]⟩
abbrev S4096x1 : Shape := ⟨2, ![4096, 1]⟩
abbrev S2097152 : Shape := ⟨1, ![2097152]⟩
abbrev S_ : Shape := ⟨0, ![]⟩
abbrev S2097152x1 : Shape := ⟨2, ![2097152, 1]⟩
abbrev S2097152x8 : Shape := ⟨2, ![2097152, 8]⟩
abbrev S4096x4096 : Shape := ⟨2, ![4096, 4096]⟩
abbrev S8 : Shape := ⟨1, ![8]⟩
abbrev S1x8 : Shape := ⟨2, ![1, 8]⟩

abbrev nBuf : Space → Nat
  | .hbm => 42
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x8, .f32⟩
  | .hbm, ⟨2, _⟩ => ⟨S4096x1, .f32⟩
  | .hbm, ⟨3, _⟩ => ⟨S2097152, .i32⟩
  | .hbm, ⟨4, _⟩ => ⟨S2097152, .i32⟩
  | .hbm, ⟨5, _⟩ => ⟨S_, .i32⟩
  | .hbm, ⟨6, _⟩ => ⟨S2097152, .i32⟩
  | .hbm, ⟨7, _⟩ => ⟨S2097152, .i1⟩
  | .hbm, ⟨8, _⟩ => ⟨S_, .i32⟩
  | .hbm, ⟨9, _⟩ => ⟨S2097152, .i32⟩
  | .hbm, ⟨10, _⟩ => ⟨S2097152, .i32⟩
  | .hbm, ⟨11, _⟩ => ⟨S2097152, .i32⟩
  | .hbm, ⟨12, _⟩ => ⟨S2097152x1, .i32⟩
  | .hbm, ⟨13, _⟩ => ⟨S2097152x8, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S2097152x1, .i32⟩
  | .hbm, ⟨18, _⟩ => ⟨S8, .i32⟩
  | .hbm, ⟨19, _⟩ => ⟨S_, .i32⟩
  | .hbm, ⟨20, _⟩ => ⟨S8, .i32⟩
  | .hbm, ⟨21, _⟩ => ⟨S8, .i32⟩
  | .hbm, ⟨22, _⟩ => ⟨S_, .i32⟩
  | .hbm, ⟨23, _⟩ => ⟨S8, .i32⟩
  | .hbm, ⟨24, _⟩ => ⟨S8, .i32⟩
  | .hbm, ⟨25, _⟩ => ⟨S1x8, .i32⟩
  | .hbm, ⟨26, _⟩ => ⟨S2097152x8, .i32⟩
  | .hbm, ⟨27, _⟩ => ⟨S2097152x8, .i32⟩
  | .hbm, ⟨28, _⟩ => ⟨S2097152x8, .i32⟩
  | .hbm, ⟨29, _⟩ => ⟨S_, .i32⟩
  | .hbm, ⟨30, _⟩ => ⟨S2097152x8, .i32⟩
  | .hbm, ⟨31, _⟩ => ⟨S2097152x8, .i32⟩
  | .hbm, ⟨32, _⟩ => ⟨S_, .i32⟩
  | .hbm, ⟨33, _⟩ => ⟨S2097152x8, .i32⟩
  | .hbm, ⟨34, _⟩ => ⟨S2097152x8, .i32⟩
  | .hbm, ⟨35, _⟩ => ⟨S_, .i32⟩
  | .hbm, ⟨36, _⟩ => ⟨S2097152x8, .i32⟩
  | .hbm, ⟨37, _⟩ => ⟨S2097152x8, .i32⟩
  | .hbm, ⟨38, _⟩ => ⟨S2097152x8, .f32⟩
  | .hbm, ⟨39, _⟩ => ⟨S4096x4096, .f32⟩
  | .hbm, ⟨40, _⟩ => ⟨S4096x4096, .f32⟩
  | .hbm, ⟨41, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_c_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  bcast_S_S2097152 : S_.BroadcastsInDim S2097152 (![] : Fin 0 → Fin S2097152.rank)
  bcast_S2097152_S2097152x1_0 : S2097152.BroadcastsInDim S2097152x1 (![0] : Fin 1 → Fin S2097152x1.rank)
  shapeCasts_S2097152x8_S4096x4096 : S2097152x8.ShapeCasts S4096x4096
  bcast_S4096x1_S4096x4096_0_1 : S4096x1.BroadcastsInDim S4096x4096 (![0, 1] : Fin 2 → Fin S4096x4096.rank)
  bcast_S_S8 : S_.BroadcastsInDim S8 (![] : Fin 0 → Fin S8.rank)
  bcast_S8_S1x8_1 : S8.BroadcastsInDim S1x8 (![1] : Fin 1 → Fin S1x8.rank)
  bcast_S2097152x1_S2097152x8_0_1 : S2097152x1.BroadcastsInDim S2097152x8 (![0, 1] : Fin 2 → Fin S2097152x8.rank)
  bcast_S1x8_S2097152x8_0_1 : S1x8.BroadcastsInDim S2097152x8 (![0, 1] : Fin 2 → Fin S2097152x8.rank)
  bcast_S_S2097152x8 : S_.BroadcastsInDim S2097152x8 (![] : Fin 0 → Fin S2097152x8.rank)
  gather_S4096x8_S2097152x1_S2097152x8_1_0_n_n_0_1_18_wf : GatherDims.WF S4096x8 S2097152x1 S2097152x8 [1] [0] [] [0] [] 1 ![1, 8]
  dot_S8192x4096_S4096x4096_S8192x4096_1_1_0_0_n_n_wf : DotDims.WF S8192x4096 S4096x4096 S8192x4096 [1] [1] [0] [0] [] []

variable [Facts₀]

def gather_S4096x8_S2097152x1_S2097152x8_1_0_n_n_0_1_18 : GatherDims S4096x8 S2097152x1 S2097152x8 where
  offsetDims := [1]
  collapsedSliceDims := [0]
  operandBatchingDims := []
  startIndicesBatchingDims := []
  startIndexMap := [0]
  indexVectorDim := 1
  sliceSizes := ![1, 8]
  wf := gather_S4096x8_S2097152x1_S2097152x8_1_0_n_n_0_1_18_wf
def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.LibSumBlocks.lean ====
/-
  A finite sum taken block by block.

  A sum over the `a * b` positions `0, 1, …, a * b - 1` is the sum, over the `a` consecutive blocks of `b` positions,
  of each block's own sum: position `q` is `b * s + r` for exactly one block number `s < a` and one place `r < b` in
  the block. The monoid is any commutative additive one, so the statement serves the extended reals, where the sum of
  `+∞` and `-∞` is defined and addition is still commutative and associative: regrouping a sum needs nothing finite.
-/
import Mathlib.Algebra.BigOperators.Fin
import Mathlib.Logic.Equiv.Fin.Basic

namespace SumBlocks

/-- The sum over `Fin (a * b)` of a function of the position is the sum over the `a` blocks of the sums over each
    block's `b` places, the place `r` of block `s` being position `b * s + r`. -/
theorem sum_fin_mul {β : Type*} [AddCommMonoid β] (a b : ℕ) (f : ℕ → β) :
    ∑ q : Fin (a * b), f q.val = ∑ s ∈ Finset.range a, ∑ r : Fin b, f (b * s + r.val) := by
  rw [Finset.sum_range, ← Equiv.sum_comp finProdFinEquiv (fun q : Fin (a * b) => f q.val), Fintype.sum_prod_type]
  refine Finset.sum_congr rfl fun s _ => Finset.sum_congr rfl fun r _ => ?_
  show f (r.val + b * s.val) = f (b * s.val + r.val)
  rw [Nat.add_comm]

end SumBlocks
-- ==== Proof.KernelFold.lean ====
/-
  What the idealized kernel leaves in its result array, entry by entry.

  The pallas_call runs a 8 × 2 × 8 grid. Point `t` has row block `t / 16`, column block `t / 8 % 2` and depth block
  `t % 8`; it fetches the 1024 × 512 block (row block, depth block) of `x`, the 2048 × 512 block (column block, depth
  block) of the dequantized weight `w`, and holds the 1024 × 2048 block (row block, column block) of the result across
  the eight points of one run, zeroing it at depth block 0 and adding `x_blk · w_blkᵀ` at every point. So entry
  (r, c) of the result is `0 + Σ_{s < 8} Σ_{kk < 512} x (r, 512 s + kk) · w (c, 512 s + kk)`, the blocks of 512 taken
  in order, and that is the one sum `Σ_{q < 4096} x (r, q) · w (c, q)` (LibSumBlocks): a regrouping of a sum, valid on
  the extended reals with no finiteness assumed. The change of float format on `x` inside the body is the identity
  on extended reals.
-/
import proofs.«411668_j30021821399185_3_alg».proof.Proof.Gen.KernelIdeal.Value
import proofs.«411668_j30021821399185_3_alg».proof.Proof.LibSumBlocks
import Idealize.ShloMosaic.Lib.ValueIdx
import Idealize.ShloMosaic.Lib.Pipeline.Value
import Idealize.ShloMosaic.PureOps.Ideal.Laws

noncomputable section

namespace Cert.KernelIdeal.Fold

open Cert.KernelIdeal Cert.KernelIdeal.Gen Cert.KernelIdeal.Value Idealize.ShloMosaic Idealize.ShloMosaic.TcCoe Idealize.SL.Sem
open Idealize.ShloMosaic.ValueIdx

/-! ## One block product, read at an entry

The body's `tpu.matmul` contracts axis 1 of the 1024 × 512 block with axis 1 of the 2048 × 512 block: at the output
entry (p, j) and contraction position kk the left factor sits at (p, kk) and the right one at (j, kk). -/

theorem lhs_blk_0 (y : S1024x2048.Idx) (q : dot_S1024x512_S2048x512_S1024x2048_1_1_0_0_n_n.contr.Idx) :
    (dot_S1024x512_S2048x512_S1024x2048_1_1_0_0_n_n.lhsIdx y q 0).val = (y 0).val := by
  unfold DotDims.lhsIdx
  rw [dif_neg (show ¬(0 : Fin S1024x512.rank) ∈ dot_S1024x512_S2048x512_S1024x2048_1_1_0_0_n_n.lhsBatch by decide), dif_pos (show (0 : Fin S1024x512.rank) ∈ dot_S1024x512_S2048x512_S1024x2048_1_1_0_0_n_n.lhsNonContracting by decide)]
  rfl
theorem lhs_blk_1 (y : S1024x2048.Idx) (q : dot_S1024x512_S2048x512_S1024x2048_1_1_0_0_n_n.contr.Idx) :
    (dot_S1024x512_S2048x512_S1024x2048_1_1_0_0_n_n.lhsIdx y q 1).val = (q ⟨0, by decide⟩).val :=
  dot_S1024x512_S2048x512_S1024x2048_1_1_0_0_n_n.lhsIdx_val_of_single rfl y q
theorem rhs_blk_0 (y : S1024x2048.Idx) (q : dot_S1024x512_S2048x512_S1024x2048_1_1_0_0_n_n.contr.Idx) :
    (dot_S1024x512_S2048x512_S1024x2048_1_1_0_0_n_n.rhsIdx y q 0).val = (y 1).val := by
  unfold DotDims.rhsIdx
  rw [dif_neg (show ¬(0 : Fin S2048x512.rank) ∈ dot_S1024x512_S2048x512_S1024x2048_1_1_0_0_n_n.rhsBatch by decide), dif_pos (show (0 : Fin S2048x512.rank) ∈ dot_S1024x512_S2048x512_S1024x2048_1_1_0_0_n_n.rhsNonContracting by decide)]
  rfl
theorem rhs_blk_1 (y : S1024x2048.Idx) (q : dot_S1024x512_S2048x512_S1024x2048_1_1_0_0_n_n.contr.Idx) :
    (dot_S1024x512_S2048x512_S1024x2048_1_1_0_0_n_n.rhsIdx y q 1).val = (q ⟨0, by decide⟩).val :=
  dot_S1024x512_S2048x512_S1024x2048_1_1_0_0_n_n.rhsIdx_val_of_single rfl y q

/-- The block product into the zero accumulator, at entry (p, j): the sum over the 512 contraction positions of the
    left block at (p, kk) times the right block at (j, kk). -/
theorem blockProduct_apply (x0 : FVec Ideal S1024x512 .bf16) (x1 : FVec Ideal S2048x512 .bf16) (p : Fin 1024) (j : Fin 2048) :
    (matmul dot_S1024x512_S2048x512_S1024x2048_1_1_0_0_n_n none x0 x1 (constant S1024x2048 .f32 0x00000000#32) : FVec Ideal S1024x2048 .f32) (ix2 p j)
      = ∑ kk : Fin 512, x0 (ix2 p kk) * x1 (ix2 j kk) := by
  simp only [matmul]
  rw [Ideal.matmul_constant_zero_apply, ← Equiv.sum_comp (contrEquiv1 dot_S1024x512_S2048x512_S1024x2048_1_1_0_0_n_n 512 rfl rfl).symm]
  refine Finset.sum_congr rfl fun kk _ => ?_
  have hk := contrEquiv1_symm_val dot_S1024x512_S2048x512_S1024x2048_1_1_0_0_n_n 512 rfl rfl kk
  have el : dot_S1024x512_S2048x512_S1024x2048_1_1_0_0_n_n.lhsIdx (ix2 p j) ((contrEquiv1 dot_S1024x512_S2048x512_S1024x2048_1_1_0_0_n_n 512 rfl rfl).symm kk) = ix2 p kk := funext fun a => Fin.ext (by
    match a with
    | ⟨0, _⟩ => exact lhs_blk_0 _ _
    | ⟨1, _⟩ => exact (lhs_blk_1 _ _).trans hk)
  have er : dot_S1024x512_S2048x512_S1024x2048_1_1_0_0_n_n.rhsIdx (ix2 p j) ((contrEquiv1 dot_S1024x512_S2048x512_S1024x2048_1_1_0_0_n_n 512 rfl rfl).symm kk) = ix2 j kk := funext fun a => Fin.ext (by
    match a with
    | ⟨0, _⟩ => exact rhs_blk_0 _ _
    | ⟨1, _⟩ => exact (rhs_blk_1 _ _).trans hk)
  exact congrArg₂ (· * ·) (congrArg x0 el) (congrArg x1 er)

/-! ## The body's two stored values at an entry -/

/-- The value stored at depth block 0 before anything is added: zero everywhere. -/
theorem zeroFill_apply (y : S1024x2048.Idx) : (k0_pay1 (F := Ideal)) y = 0 := by
  show Ideal.ofBits .f32 0x00000000#32 = 0
  exact Ideal.ofBits_zero_f32

/-- The value stored at every point: what the result block held (`acc`) plus the block product of this point's two
    input blocks, the left one's change of format being the identity. -/
theorem accumulate_apply (x0 : FVec Ideal S1024x512 .f32) (acc : FVec Ideal S1024x2048 .f32) (x1 : FVec Ideal S2048x512 .bf16)
    (p : Fin 1024) (j : Fin 2048) :
    (k0_pay2 (F := Ideal) x0 acc x1) (ix2 p j) = acc (ix2 p j) + ∑ kk : Fin 512, x0 (ix2 p kk) * x1 (ix2 j kk) := by
  unfold k0_pay2
  show (shapeCast S1024x2048 acc shapeCasts_S1024x2048_S1024x2048) (ix2 p j)
      + (matmul dot_S1024x512_S2048x512_S1024x2048_1_1_0_0_n_n none (truncf .bf16 x0 bitsLt_bf16_f32) (shapeCast S2048x512 x1 shapeCasts_S2048x512_S2048x512)
          (constant S1024x2048 .f32 0x00000000#32) : FVec Ideal S1024x2048 .f32) (ix2 p j) = _
  rw [blockProduct_apply, shapeCast_self, shapeCast_self]
  rfl

/-! ## The blocks a point reads

The arrays the region finds — `x` as launched, `w` as the host operations before the call wrote it — and the two input
blocks of a point, named at their literal shapes. Point `t` reads rows `1024 (t / 16) …` and columns `512 (t % 8) …`
of `x`, rows `2048 (t / 8 % 2) …` and columns `512 (t % 8) …` of `w`: the printed index maps, decided over the grid. -/

variable (m : (ℓ : Loc nD τ sig) → Buf (Elt Ideal) ℓ)

abbrev xArr (c : Dev nD) : FVec Ideal S8192x4096 .f32 := V m c main_arg0
abbrev wArr (c : Dev nD) : FVec Ideal S4096x4096 .bf16 := V m c main_v29
abbrev xBlk (c : Dev nD) (t : Fin cfg0.N) : FVec Ideal S1024x512 .f32 := iblk m c 0 t
abbrev wBlk (c : Dev nD) (t : Fin cfg0.N) : FVec Ideal S2048x512 .bf16 := iblk m c 1 t

theorem idx_facts01 : ∀ t : Fin cfg0.N,
    win0_0.index t (0 : Fin 2) = t.val / 16 ∧ win0_0.index t (1 : Fin 2) = t.val % 8
    ∧ win0_1.index t (0 : Fin 2) = t.val / 8 % 2 ∧ win0_1.index t (1 : Fin 2) = t.val % 8 :=
  (by decide +kernel : ∀ t : Fin grid0.N, _)

/-- Entry (p, kk) of point `t`'s block of `x` is the entry of `x` at row `1024 (t / 16) + p`, column `512 (t % 8) + kk`. -/
theorem xBlk_apply (c : Dev nD) (t : Fin cfg0.N) (p : Fin 1024) (kk : Fin 512) (i : S8192x4096.Idx)
    (h0 : (i 0).val = t.val / 16 * 1024 + p.val) (h1 : (i 1).val = t.val % 8 * 512 + kk.val) :
    xBlk m c t (ix2 p kk) = xArr m c i := by
  obtain ⟨e0, e1, -, -⟩ := idx_facts01 t
  have key : (((cfg0.win 0).blk t).view.emb (ix2 p kk) : S8192x4096.Idx) = i := funext fun a => Fin.ext (by
    match a with
    | ⟨0, _⟩ => show win0_0.index t (0 : Fin 2) * 1024 + 1 * p.val = (i 0).val; omega
    | ⟨1, _⟩ => show win0_0.index t (1 : Fin 2) * 512 + 1 * kk.val = (i 1).val; omega)
  exact congrArg (xArr m c) key

/-- Entry (j, kk) of point `t`'s block of `w` is the entry of `w` at row `2048 (t / 8 % 2) + j`, column `512 (t % 8) + kk`. -/
theorem wBlk_apply (c : Dev nD) (t : Fin cfg0.N) (j : Fin 2048) (kk : Fin 512) (i : S4096x4096.Idx)
    (h0 : (i 0).val = t.val / 8 % 2 * 2048 + j.val) (h1 : (i 1).val = t.val % 8 * 512 + kk.val) :
    wBlk m c t (ix2 j kk) = wArr m c i := by
  obtain ⟨-, -, e0, e1⟩ := idx_facts01 t
  have key : (((cfg0.win 1).blk t).view.emb (ix2 j kk) : S4096x4096.Idx) = i := funext fun a => Fin.ext (by
    match a with
    | ⟨0, _⟩ => show win0_1.index t (0 : Fin 2) * 2048 + 1 * j.val = (i 0).val; omega
    | ⟨1, _⟩ => show win0_1.index t (1 : Fin 2) * 512 + 1 * kk.val = (i 1).val; omega)
  exact congrArg (wArr m c) key

/-! ## A run's fold, unrolled

Point `n` adds to the held block, at entry `y`, the block product of its two input blocks there (`addend`); the first
point of a run starts from zero. So the block after the eighth point holds zero plus the eight addends. -/

abbrev rowOf (y : S1024x2048.Idx) : Fin 1024 := ⟨(y 0).val, idx2_lt0 y⟩
abbrev colOf (y : S1024x2048.Idx) : Fin 2048 := ⟨(y 1).val, idx2_lt1 y⟩

/-- What point `n` adds at entry `y` of the held block (zero past the grid, where it is never used). -/
def addend (c : Dev nD) (n : ℕ) (y : S1024x2048.Idx) : EReal :=
  if h : n < cfg0.N then ∑ kk : Fin 512, xBlk m c ⟨n, h⟩ (ix2 (rowOf y) kk) * wBlk m c ⟨n, h⟩ (ix2 (colOf y) kk) else 0

theorem reset_apply (c : Dev nD) (n : ℕ) (h : n < cfg0.N) (y : S1024x2048.Idx) :
    reset2 m c n h y = 0 + addend m c n y := by
  obtain ⟨p, j, rfl⟩ : ∃ (p : Fin 1024) (j : Fin 2048), y = ix2 p j := ⟨y 0, y 1, eq_ix2 y⟩
  unfold reset2 addend
  rw [dif_pos h]
  refine (accumulate_apply (xBlk m c ⟨n, h⟩) (k0_pay1 (F := Ideal)) (wBlk m c ⟨n, h⟩) p j).trans ?_
  rw [zeroFill_apply]

theorem step_apply (c : Dev nD) (n : ℕ) (h : n < cfg0.N) (acc : Vec Ideal S1024x2048 .f32) (y : S1024x2048.Idx) :
    step2 m c n h acc y = acc y + addend m c n y := by
  obtain ⟨p, j, rfl⟩ : ∃ (p : Fin 1024) (j : Fin 2048), y = ix2 p j := ⟨y 0, y 1, eq_ix2 y⟩
  unfold step2 addend
  rw [dif_pos h]
  exact accumulate_apply (xBlk m c ⟨n, h⟩) acc (wBlk m c ⟨n, h⟩) p j

/-- The held block after the eighth point of the run starting at point `b`: zero plus the run's eight addends. -/
theorem fold_apply (c : Dev nD) (b : ℕ) (h : b + 7 < cfg0.N) (y : S1024x2048.Idx) :
    Pipeline.accAt (reset2 m c) (step2 m c) b 7 h y = 0 + ∑ s ∈ Finset.range 8, addend m c (b + s) y :=
  Pipeline.accAt_add_apply (ι := S1024x2048.Idx) (β := EReal) (reset2 m c) (step2 m c) (fun _ => 0) (addend m c) b 7
    (fun h y => reset_apply m c b h y) (fun n h acc y _ _ => step_apply m c n h acc y) 7 le_rfl h y

end Cert.KernelIdeal.Fold

end
-- ==== Proof.KernelResult.lean ====
/-
  The idealized kernel's result entry as ONE sum.

  Entry `i` = (r, c) of the result lies in the block (r / 1024, c / 2048), which the run of eight points starting at
  point `8 (2 (r / 1024) + c / 2048)` fills; its place in the block is (r % 1024, c % 2048). The s-th point of that run
  reads columns `512 s …` of row r of `x` and of row c of `w`, so its addend is `Σ_{kk < 512} x (r, 512 s + kk) · w (c, 512 s + kk)`,
  and the eight addends together are `Σ_{q < 4096} x (r, q) · w (c, q)`.
-/
import proofs.«411668_j30021821399185_3_alg».proof.Proof.KernelFold

noncomputable section

namespace Cert.KernelIdeal.Fold

open Cert.KernelIdeal Cert.KernelIdeal.Gen Cert.KernelIdeal.Value Idealize.ShloMosaic Idealize.ShloMosaic.TcCoe Idealize.SL.Sem
open Idealize.ShloMosaic.ValueIdx

variable (m : (ℓ : Loc nD τ sig) → Buf (Elt Ideal) ℓ)

abbrev rowX (i : S8192x4096.Idx) : Fin 8192 := ⟨(i 0).val, idx2_lt0 i⟩
abbrev rowW (i : S8192x4096.Idx) : Fin 4096 := ⟨(i 1).val, idx2_lt1 i⟩

/-- The product at contraction position `q` for result entry `i` = (r, c): `x (r, q) · w (c, q)` (zero past 4096, where
    it is never used). -/
def term (c : Dev nD) (i : S8192x4096.Idx) (q : ℕ) : EReal :=
  if h : q < 4096 then xArr m c (ix2 (rowX i) ⟨q, h⟩) * wArr m c (ix2 (rowW i) ⟨q, h⟩) else 0

/-- The addend of the s-th point of the run that fills entry `i`'s block, at `i`'s place in the block: the products
    at the contraction positions `512 s, …, 512 s + 511`. -/
theorem addend_apply (c : Dev nD) (i : S8192x4096.Idx) (s : ℕ) (hs : s < 8) :
    addend m c (8 * run2Of i + s) (loc2Of i) = ∑ kk : Fin 512, term m c i (512 * s + kk.val) := by
  have hr : (i 0).val < 8192 := idx2_lt0 i
  have hc : (i 1).val < 4096 := idx2_lt1 i
  have hN : 8 * run2Of i + s < cfg0.N := by
    rw [show cfg0.N = 128 from N_0]
    show 8 * (2 * ((i 0).val / 1024 - 0) + 1 * ((i 1).val / 2048 - 0)) + s < 128
    omega
  unfold addend
  rw [dif_pos hN]
  refine Finset.sum_congr rfl fun kk _ => ?_
  have hk : kk.val < 512 := kk.isLt
  have hq : 512 * s + kk.val < 4096 := by omega
  unfold term
  rw [dif_pos hq]
  rw [xBlk_apply m c ⟨8 * run2Of i + s, hN⟩ (rowOf (loc2Of i)) kk (ix2 (rowX i) ⟨512 * s + kk.val, hq⟩)
        (by show (i 0).val = (8 * (2 * ((i 0).val / 1024 - 0) + 1 * ((i 1).val / 2048 - 0)) + s) / 16 * 1024 + (i 0).val % 1024; omega)
        (by show 512 * s + kk.val = (8 * (2 * ((i 0).val / 1024 - 0) + 1 * ((i 1).val / 2048 - 0)) + s) % 8 * 512 + kk.val; omega),
      wBlk_apply m c ⟨8 * run2Of i + s, hN⟩ (colOf (loc2Of i)) kk (ix2 (rowW i) ⟨512 * s + kk.val, hq⟩)
        (by show (i 1).val = (8 * (2 * ((i 0).val / 1024 - 0) + 1 * ((i 1).val / 2048 - 0)) + s) / 8 % 2 * 2048 + (i 1).val % 2048; omega)
        (by show 512 * s + kk.val = (8 * (2 * ((i 0).val / 1024 - 0) + 1 * ((i 1).val / 2048 - 0)) + s) % 8 * 512 + kk.val; omega)]

/-- THE RESULT ENTRY: after the run the kernel's result array holds, at (r, c), the sum over all 4096 contraction
    positions of `x (r, q) · w (c, q)`. -/
theorem result_apply (c : Dev nD) (i : S8192x4096.Idx) :
    G2 (F := Ideal) m c i = ∑ q : Fin 4096, xArr m c (ix2 (rowX i) q) * wArr m c (ix2 (rowW i) q) := by
  have hr : (i 0).val < 8192 := idx2_lt0 i
  have hc : (i 1).val < 4096 := idx2_lt1 i
  have hN : 8 * run2Of i + 7 < cfg0.N := by
    rw [show cfg0.N = 128 from N_0]
    show 8 * (2 * ((i 0).val / 1024 - 0) + 1 * ((i 1).val / 2048 - 0)) + 7 < 128
    omega
  unfold G2
  rw [dif_pos hN, fold_apply, zero_add,
    Finset.sum_congr rfl (fun s hs => addend_apply m c i s (Finset.mem_range.mp hs)),
    ← SumBlocks.sum_fin_mul 8 512 (term m c i)]
  show ∑ q : Fin 4096, term m c i q.val = _
  exact Finset.sum_congr rfl fun q _ => dif_pos q.isLt

end Cert.KernelIdeal.Fold

end
-- ==== Proof.ReferenceProduct.lean ====
/-
  The reference's result entry.

  The reference multiplies the whole `x` (8192 × 4096) by the whole dequantized weight `w` (4096 × 4096) in one
  `dot_general` contracting axis 1 of both: entry (r, c) is `Σ_{q < 4096} x (r, q) · w (c, q)` on the extended reals.
  The weight is left as the reference's own stage (the gather, the row scales and the unpacked signs multiplied in
  that order); nothing here looks inside it.
-/
import proofs.«411668_j30021821399185_3_alg».proof.Proof.Gen.ReferenceIdeal.Read
import Idealize.ShloMosaic.Lib.ValueIdx

noncomputable section

namespace Cert.ReferenceIdeal.RefValue

open Cert.ReferenceIdeal Cert.ReferenceIdeal.Gen Idealize.ShloMosaic Idealize.ShloMosaic.TcCoe Idealize.SL.Sem
open Idealize.ShloMosaic.ValueIdx

abbrev rowX (i : S8192x4096.Idx) : Fin 8192 := ⟨(i 0).val, idx2_lt0 i⟩
abbrev rowW (i : S8192x4096.Idx) : Fin 4096 := ⟨(i 1).val, idx2_lt1 i⟩

/-- The reference's result at entry `i` = (r, c): the sum over the 4096 contraction positions of `x (r, q)` times the
    reference's weight at (c, q). -/
theorem result_apply (x0 : (⟨S8192x4096, .f32⟩ : BufTy).Contents (Elt Ideal)) (x1 : (⟨S4096x8, .f32⟩ : BufTy).Contents (Elt Ideal))
    (x2 : (⟨S4096x1, .f32⟩ : BufTy).Contents (Elt Ideal)) (x3 x4 : (⟨S2097152, .i32⟩ : BufTy).Contents (Elt Ideal)) (i : S8192x4096.Idx) :
    Read.val_main_v29 (F := Ideal) x0 x1 x2 x3 x4 i
      = ∑ q : Fin 4096, x0 (ix2 (rowX i) q) * (Read.val_main_v28 (F := Ideal) x1 x2 x3 x4) (ix2 (rowW i) q) := by
  rw [Read.val_main_v29_apply]
  refine Finset.sum_congr rfl fun q _ => ?_
  have el : Read.lidx_main_v29 i q = ix2 (rowX i) q := funext fun a => by
    match a with
    | ⟨0, _⟩ => rfl
    | ⟨1, _⟩ => rfl
  have er : Read.ridx_main_v29 i q = ix2 (rowW i) q := funext fun a => by
    match a with
    | ⟨0, _⟩ => rfl
    | ⟨1, _⟩ => rfl
  rw [el, er]

end Cert.ReferenceIdeal.RefValue

end
-- ==== Proof.Bridge.lean ====
/-
  The two programs compute one function.

  Both programs build the dequantized weight `w` with the same host operations in the same order — the gather of
  codebook rows at the wrapped indices, reshaped to 4096 × 4096, times the row scales, times the unpacked signs —;
  the kernel then narrows `w` to bf16, which is the identity on extended reals. So the array the pallas_call finds in
  its second operand IS the reference's weight stage of the same arguments, and the kernel's result entry
  `Σ_{q < 4096} x (r, q) · w (c, q)` (KernelResult) is the reference's (ReferenceProduct) term for term.
-/
import proofs.«411668_j30021821399185_3_alg».proof.Proof.KernelResult
import proofs.«411668_j30021821399185_3_alg».proof.Proof.ReferenceProduct
import Idealize.ShloMosaic.Lib.StableHlo.Run

noncomputable section

namespace Cert.Bridge

open Idealize.ShloMosaic Idealize.ShloMosaic.TcCoe Idealize.SL.Sem Idealize.ShloMosaic.StableHlo
open Idealize.ShloMosaic.ValueIdx
open Cert.KernelIdeal Cert.KernelIdeal.Gen

variable (m : (ℓ : Loc nD τ sig) → Buf (Elt Ideal) ℓ)

/-- The array the pallas_call finds in its second operand is the reference's weight stage of the launch arguments:
    the same host operations in the same order, then a narrowing that is the identity on extended reals. -/
theorem weight_eq (c : Dev nD) :
    (V m c main_v29 : S4096x4096.Idx → EReal)
      = Cert.ReferenceIdeal.Read.val_main_v28 (F := Ideal) (m ((c : Thread nD τ).loc main_arg1)) (m ((c : Thread nD τ).loc main_arg2))
          (m ((c : Thread nD τ).loc main_arg3)) (m ((c : Thread nD τ).loc main_arg4)) := by
  show StableHlo.after (hostOps0 (F := Ideal)) (fun b => m (c, b)) (Proc.devRef .tc main_v29) = _
  after_results_simp
  rfl

/-- THE EQUATION the two runs meet in: the reference's `dot_general` of the launch arguments is the kernel's result
    array, entry by entry. -/
theorem result_eq (c : Dev nD) :
    Cert.ReferenceIdeal.Read.val_main_v29 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
      = Cert.KernelIdeal.Value.G2 (F := Ideal) m c := by
  funext i
  rw [Cert.ReferenceIdeal.RefValue.result_apply]
  refine Eq.trans ?_ (Cert.KernelIdeal.Fold.result_apply m c i).symm
  refine Finset.sum_congr rfl fun q _ => ?_
  refine congrArg₂ (· * ·) ?_ ?_
  · exact (congrFun (V_main_arg0 m c) _).symm
  · exact (congrFun (weight_eq m c) _).symm

end Cert.Bridge

end
-- ==== Proof.lean ====
/-
  A linear layer with a vector-quantized weight: `out = x · wᵀ` with `x` of shape 8192 × 4096 and the 4096 × 4096
  weight `w (o, i) = codebook[indices].reshape(4096, 4096) (o, i) · scales (o) · sign (o, i)`, the signs unpacked from
  bytes, most significant bit first, as ±1.

  The kernel builds `w` on the host exactly as the reference does (the same operations in the same order), narrows it
  to bf16, and multiplies in a pallas_call on a 8 × 2 × 8 grid: the 1024 × 2048 result block (a, b) is zeroed at depth
  block 0 and receives `x_blk · w_blkᵀ` over 512 columns at each of the eight depth blocks. The reference is one
  `dot_general` contracting the 4096 columns of both.

  On the extended reals a change of float format is the identity, so the two weights are one array, and entry (r, c)
  is `0 + Σ_{s < 8} Σ_{kk < 512} x (r, 512 s + kk) · w (c, 512 s + kk)` on the kernel's side and
  `Σ_{q < 4096} x (r, q) · w (c, q)` on the reference's: the same sum grouped in eight consecutive blocks. Addition of
  extended reals is commutative and associative, so this needs no finiteness, and the precondition is never opened.
  The idealization rewrote nothing, so `preserves` has no conjunct.

  Modules: LibSumBlocks (a sum over `a · b` positions as `a` blocks of `b`), KernelFold (the block product and the
  stored values at an entry, the blocks a point reads, a run's fold unrolled), KernelResult (the kernel's result entry
  as one sum), ReferenceProduct (the reference's result entry), Bridge (the weights are one array; the two results
  are equal).
-/
import proofs.«411668_j30021821399185_3_alg».proof.Defs
import proofs.«411668_j30021821399185_3_alg».proof.Proof.Gen.Kernel.Frame
import proofs.«411668_j30021821399185_3_alg».proof.Proof.Gen.KernelIdeal.Value
import proofs.«411668_j30021821399185_3_alg».proof.Proof.Gen.Pre_finite_inputs
import proofs.«411668_j30021821399185_3_alg».proof.Proof.Gen.ReferenceIdeal.Run
import proofs.«411668_j30021821399185_3_alg».proof.Proof.Bridge
import Idealize.ShloMosaic.Adequacy
import Idealize.ShloMosaic.Init

noncomputable section

namespace Cert.Proof

open Idealize.ShloMosaic Idealize.SL.Sem

/-- The idealized kernel runs and leaves its arguments as launched: its value run, the result forgotten. -/
theorem frame_KernelIdeal : frame_KernelIdeal := fun m ρ _ =>
  (θ_run Cert.KernelIdeal.defs _ _).mono (fun _ h c => (h c).2) (Cert.KernelIdeal.Value.run (F := Ideal) m ρ)

/-- The idealized reference runs and leaves its arguments as launched: its run, the result forgotten. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories agreeing on the five arguments both programs run, and the reference's `dot_general` of the
    arguments is the array the kernel's eight-block accumulation leaves (`Bridge.result_eq`). -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact Cert.Bridge.result_eq m c

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
